-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1023x768 : Shape := ⟨3, ![8, 1023, 768]⟩
abbrev S8x8192x768 : Shape := ⟨3, ![8, 8192, 768]⟩
abbrev S_ : Shape := ⟨0, ![]⟩
abbrev S8x1023 : Shape := ⟨2, ![8, 1023]⟩
abbrev S8x8192 : Shape := ⟨2, ![8, 8192]⟩

class Facts : Prop where
  bcast_S_S8x1023x768 : S_.BroadcastsInDim S8x1023x768 (![] : Fin 0 → Fin S8x1023x768.rank)
  reducesTo_S8x1023x768_S_d0_1_2 : S8x1023x768.ReducesTo [0, 1, 2] S_
  h_S_ : 0 < S_.numel
  bcast_S_S8x8192x768 : S_.BroadcastsInDim S8x8192x768 (![] : Fin 0 → Fin S8x8192x768.rank)
  reducesTo_S8x8192x768_S_d0_1_2 : S8x8192x768.ReducesTo [0, 1, 2] S_
  reducesTo_S8x1023x768_S8x1023_d2 : S8x1023x768.ReducesTo [2] S8x1023
  bcast_S_S8x1023 : S_.BroadcastsInDim S8x1023 (![] : Fin 0 → Fin S8x1023.rank)
  reducesTo_S8x1023_S_d0_1 : S8x1023.ReducesTo [0, 1] S_
  reducesTo_S8x8192x768_S8x8192_d2 : S8x8192x768.ReducesTo [2] S8x8192
  bcast_S_S8x8192 : S_.BroadcastsInDim S8x8192 (![] : Fin 0 → Fin S8x8192.rank)
  reducesTo_S8x8192_S_d0_1 : S8x8192.ReducesTo [0, 1] S_

variable [Facts]

def fn_part1 {F : FTy → Type} [FloatOps F] (main_v14 : IVec S_ 1) (main_v15 : FVec F S8x8192x768 .f32) (main_cst_5 : FVec F S_ .f32) : IVec S_ 1 :=
  let main_v16 : FVec F S8x8192 .f32 := (fun x v => Host.reduceAdd x v reducesTo_S8x8192x768_S8x8192_d2 h_S_) main_v15 main_cst_5
  let main_cst_6 : FVec F S_ .f32 := constant S_ .f32 0x00000000#32
  let main_v17 : FVec F S8x8192 .f32 := broadcastInDim S8x8192 ![] bcast_S_S8x8192 main_cst_6
  let main_v18 : IVec S8x8192 1 := cmpf .ogt main_v16 main_v17
  let main_c_7 : IVec S_ 1 := constantI S_ 1 1#1
  let main_v19 : IVec S_ 1 := (fun x v => Host.reduce IntOp.andi x v reducesTo_S8x8192_S_d0_1 h_S_) main_v18 main_c_7
  let main_v20 : IVec S_ 1 := andi main_v14 main_v19
  main_v20

def fn {F : FTy → Type} [FloatOps F] (main_arg0 : FVec F S8x1023x768 .f32) (main_arg1 : FVec F S8x8192x768 .f32) : IVec S_ 1 :=
  let main_v0 : FVec F S8x1023x768 .f32 := Host.absf main_arg0
  let main_cst : FVec F S_ .f32 := constant S_ .f32 0x7F800000#32
  let main_v1 : FVec F S8x1023x768 .f32 := broadcastInDim S8x1023x768 ![] bcast_S_S8x1023x768 main_cst
  let main_v2 : IVec S8x1023x768 1 := cmpf .olt main_v0 main_v1
  let main_c : IVec S_ 1 := constantI S_ 1 1#1
  let main_v3 : IVec S_ 1 := (fun x v => Host.reduce IntOp.andi x v reducesTo_S8x1023x768_S_d0_1_2 h_S_) main_v2 main_c
  let main_v4 : FVec F S8x8192x768 .f32 := Host.absf main_arg1
  let main_cst_0 : FVec F S_ .f32 := constant S_ .f32 0x7F800000#32
  let main_v5 : FVec F S8x8192x768 .f32 := broadcastInDim S8x8192x768 ![] bcast_S_S8x8192x768 main_cst_0
  let main_v6 : IVec S8x8192x768 1 := cmpf .olt main_v4 main_v5
  let main_c_1 : IVec S_ 1 := constantI S_ 1 1#1
  let main_v7 : IVec S_ 1 := (fun x v => Host.reduce IntOp.andi x v reducesTo_S8x8192x768_S_d0_1_2 h_S_) main_v6 main_c_1
  let main_v8 : IVec S_ 1 := andi main_v3 main_v7
  let main_v9 : FVec F S8x1023x768 .f32 := mulf main_arg0 main_arg0
  let main_cst_2 : FVec F S_ .f32 := constant S_ .f32 0x00000000#32
  let main_v10 : FVec F S8x1023 .f32 := (fun x v => Host.reduceAdd x v reducesTo_S8x1023x768_S8x1023_d2 h_S_) main_v9 main_cst_2
  let main_cst_3 : FVec F S_ .f32 := constant S_ .f32 0x00000000#32
  let main_v11 : FVec F S8x1023 .f32 := broadcastInDim S8x1023 ![] bcast_S_S8x1023 main_cst_3
  let main_v12 : IVec S8x1023 1 := cmpf .ogt main_v10 main_v11
  let main_c_4 : IVec S_ 1 := constantI S_ 1 1#1
  let main_v13 : IVec S_ 1 := (fun x v => Host.reduce IntOp.andi x v reducesTo_S8x1023_S_d0_1 h_S_) main_v12 main_c_4
  let main_v14 : IVec S_ 1 := andi main_v8 main_v13
  let main_v15 : FVec F S8x8192x768 .f32 := mulf main_arg1 main_arg1
  let main_cst_5 : FVec F S_ .f32 := constant S_ .f32 0x00000000#32
  fn_part1 (F := F) main_v14 main_v15 main_cst_5
-- ==== Kernel.lean ====
abbrev S8x1023x768 : Shape := ⟨3, ![8, 1023, 768]⟩
abbrev S8x8192x768 : Shape := ⟨3, ![8, 8192, 768]⟩
abbrev S8x1023x8192 : Shape := ⟨3, ![8, 1023, 8192]⟩
abbrev S1x1023x768 : Shape := ⟨3, ![1, 1023, 768]⟩
abbrev S1x2048x768 : Shape := ⟨3, ![1, 2048, 768]⟩
abbrev S1x1023x2048 : Shape := ⟨3, ![1, 1023, 2048]⟩
abbrev S1023x768 : Shape := ⟨2, ![1023, 768]⟩
abbrev S1023 : Shape := ⟨1, ![1023]⟩
abbrev S1023x1 : Shape := ⟨2, ![1023, 1]⟩
abbrev S1023x1024 : Shape := ⟨2, ![1023, 1024]⟩
abbrev S1x1023x1024 : Shape := ⟨3, ![1, 1023, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x1023x768, .f32⟩
  | .hbm, ⟨1, _⟩ => ⟨S8x8192x768, .f32⟩
  | .hbm, ⟨2, _⟩ => ⟨S8x1023x8192, .f32⟩
  | .local _ .vmem, ⟨0, _⟩ => ⟨S1x1023x768, .f32⟩
  | .local _ .vmem, ⟨1, _⟩ => ⟨S1x1023x768, .f32⟩
  | .local _ .vmem, ⟨2, _⟩ => ⟨S1x2048x768, .f32⟩
  | .local _ .vmem, ⟨3, _⟩ => ⟨S1x2048x768, .f32⟩
  | .local _ .vmem, ⟨4, _⟩ => ⟨S1x1023x2048, .f32⟩
  | .local _ .vmem, ⟨5, _⟩ => ⟨S1x1023x2048, .f32⟩
  | .local _ .vmem, ⟨6, _⟩ => ⟨S1023x768, .f32⟩
  | _, _ => ⟨S8x1023x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1023x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1023x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1023x768_S1x1023x768_0_0_0 : ∀ a, (![0, 0, 0] : Fin 3 → Nat) a + S1x1023x768.size a ≤ S1x1023x768.size a
  h_S1x1023x768 : 0 < S1x1023x768.numel
  shapeCasts_S1x1023x768_S1023x768 : S1x1023x768.ShapeCasts S1023x768
  reduces_S1023x768_S1023 : S1023x768.Reduces [1] S1023
  shapeCasts_S1023_S1023x1 : S1023.ShapeCasts S1023x1
  broadcasts_S1023x1_S1023x768 : S1023x1.Broadcasts S1023x768
  inb_S1023x768_S1023x768_0_0 : ∀ a, (![0, 0] : Fin 2 → Nat) a + S1023x768.size a ≤ S1023x768.size a
  h_S1023x768 : 0 < S1023x768.numel
  shapeCasts_S1023x768_S1023x768 : S1023x768.ShapeCasts S1023x768
  iota_S1023x1024_d0_w32 : S1023x1024.Iotas .tc 32 [0]
  iota_S1023x1024_d1_w32 : S1023x1024.Iotas .tc 32 [1]
  inb_S1x2048x768_S1x1023x768_0_1_0 : ∀ a, (![0, 1, 0] : Fin 3 → Nat) a + S1x1023x768.size a ≤ S1x2048x768.size a
  shapeCasts_S1023x1_S1023x1 : S1023x1.ShapeCasts S1023x1
  broadcasts_S1023x1_S1023x1024 : S1023x1.Broadcasts S1023x1024
  inb_S1x1023x2048_S1x1023x1024_0_0_0 : ∀ a, (![0, 0, 0] : Fin 3 → Nat) a + S1x1023x1024.size a ≤ S1x1023x2048.size a
  h_S1x1023x1024 : 0 < S1x1023x1024.numel
  shapeCasts_S1x1023x1024_S1023x1024 : S1x1023x1024.ShapeCasts S1023x1024
  shapeCasts_S1023x1024_S1x1023x1024 : S1023x1024.ShapeCasts S1x1023x1024
  inb_S1x2048x768_S1x1023x768_0_1025_0 : ∀ a, (![0, 1025, 0] : Fin 3 → Nat) a + S1x1023x768.size a ≤ S1x2048x768.size a
  inb_S1x1023x2048_S1x1023x1024_0_0_1024 : ∀ a, (![0, 0, 1024] : Fin 3 → Nat) a + S1x1023x1024.size a ≤ S1x1023x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1023x768.size a ≤ S8x1023x768.size a
  hwx0_0 : ∀ i : grid0.Coords, EltTy.bits .f32 = 32 ∨ (Rect.block (s := S8x1023x768) S1x1023x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x768.size a ≤ S8x8192x768.size a
  hwx0_1 : ∀ i : grid0.Coords, EltTy.bits .f32 = 32 ∨ (Rect.block (s := S8x8192x768) S1x2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1023x2048.size a ≤ S8x1023x8192.size a
  hwx0_2 : ∀ i : grid0.Coords, EltTy.bits .f32 = 32 ∨ (Rect.block (s := S8x1023x8192) S1x1023x2048.size (cc0_transform_2 i) (hinb0_2 i)).WholeWords (EltTy.packing .f32)

variable [Facts₀]

abbrev win0_0 : Pipeline.Window sig grid0 :=
  Pipeline.Window.ofSpec (Memref.whole main_arg0) S1x1023x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1023x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1023x768 : Shape := ⟨3, ![8, 1023, 768]⟩
abbrev S8x8192x768 : Shape := ⟨3, ![8, 8192, 768]⟩
abbrev S_ : Shape := ⟨0, ![]⟩
abbrev S8x1023 : Shape := ⟨2, ![8, 1023]⟩
abbrev S8x1023x1 : Shape := ⟨3, ![8, 1023, 1]⟩
abbrev S8x8192 : Shape := ⟨2, ![8, 8192]⟩
abbrev S8x8192x1 : Shape := ⟨3, ![8, 8192, 1]⟩
abbrev S8x1023x8192 : Shape := ⟨3, ![8, 1023, 8192]⟩
abbrev S1023x1 : Shape := ⟨2, ![1023, 1]⟩
abbrev S1023x1023 : Shape := ⟨2, ![1023, 1023]⟩
abbrev S1023x1024 : Shape := ⟨2, ![1023, 1024]⟩
abbrev S8x1023x8x1024 : Shape := ⟨4, ![8, 1023, 8, 1024]⟩
abbrev S1x1023x1x1024 : Shape := ⟨4, ![1, 1023, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8x1023x768, .f32⟩
  | .hbm, ⟨1, _⟩ => ⟨S8x8192x768, .f32⟩
  | .hbm, ⟨2, _⟩ => ⟨S8x1023x768, .f32⟩
  | .hbm, ⟨3, _⟩ => ⟨S_, .f32⟩
  | .hbm, ⟨4, _⟩ => ⟨S8x1023, .f32⟩
  | .hbm, ⟨5, _⟩ => ⟨S8x1023x1, .f32⟩
  | .hbm, ⟨6, _⟩ => ⟨S8x1023x1, .f32⟩
  | .hbm, ⟨7, _⟩ => ⟨S8x1023x768, .f32⟩
  | .hbm, ⟨8, _⟩ => ⟨S8x1023x768, .f32⟩
  | .hbm, ⟨9, _⟩ => ⟨S8x8192x768, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S8x8192x1, .f32⟩
  | .hbm, ⟨14, _⟩ => ⟨S8x8192x768, .f32⟩
  | .hbm, ⟨15, _⟩ => ⟨S8x8192x768, .f32⟩
  | .hbm, ⟨16, _⟩ => ⟨S8x1023x8192, .f32⟩
  | .hbm, ⟨17, _⟩ => ⟨S_, .i1⟩
  | .hbm, ⟨18, _⟩ => ⟨S1023x1, .i1⟩
  | .hbm, ⟨19, _⟩ => ⟨S1023x1023, .i32⟩
  | .hbm, ⟨20, _⟩ => ⟨S1023x1023, .i32⟩
  | .hbm, ⟨21, _⟩ => ⟨S_, .i32⟩
  | .hbm, ⟨22, _⟩ => ⟨S1023x1023, .i32⟩
  | .hbm, ⟨23, _⟩ => ⟨S1023x1023, .i32⟩
  | .hbm, ⟨24, _⟩ => ⟨S1023x1023, .i1⟩
  | .hbm, ⟨25, _⟩ => ⟨S1023x1024, .i1⟩
  | .hbm, ⟨26, _⟩ => ⟨S8x1023x8x1024, .f32⟩
  | .hbm, ⟨27, _⟩ => ⟨S1x1023x1x1024, .i1⟩
  | .hbm, ⟨28, _⟩ => ⟨S_, .f32⟩
  | .hbm, ⟨29, _⟩ => ⟨S_, .f32⟩
  | .hbm, ⟨30, _⟩ => ⟨S8x1023x8x1024, .i1⟩
  | .hbm, ⟨31, _⟩ => ⟨S8x1023x8x1024, .f32⟩
  | .hbm, ⟨32, _⟩ => ⟨S8x1023x8x1024, .f32⟩
  | .hbm, ⟨33, _⟩ => ⟨S8x1023x8192, .f32⟩
  | _, _ => ⟨S8x1023x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  reducesTo_S8x1023x768_S8x1023_d2 : S8x1023x768.ReducesTo [2] S8x1023
  h_S_ : 0 < S_.numel
  bcast_S8x1023_S8x1023x1_0_1 : S8x1023.BroadcastsInDim S8x1023x1 (![0, 1] : Fin 2 → Fin S8x1023x1.rank)
  bcast_S8x1023x1_S8x1023x768_0_1_2 : S8x1023x1.BroadcastsInDim S8x1023x768 (![0, 1, 2] : Fin 3 → Fin S8x1023x768.rank)
  reducesTo_S8x8192x768_S8x8192_d2 : S8x8192x768.ReducesTo [2] S8x8192
  bcast_S8x8192_S8x8192x1_0_1 : S8x8192.BroadcastsInDim S8x8192x1 (![0, 1] : Fin 2 → Fin S8x8192x1.rank)
  bcast_S8x8192x1_S8x8192x768_0_1_2 : S8x8192x1.BroadcastsInDim S8x8192x768 (![0, 1, 2] : Fin 3 → Fin S8x8192x768.rank)
  bcast_S_S1023x1 : S_.BroadcastsInDim S1023x1 (![] : Fin 0 → Fin S1023x1.rank)
  bcast_S_S1023x1023 : S_.BroadcastsInDim S1023x1023 (![] : Fin 0 → Fin S1023x1023.rank)
  concatenates_S1023x1_S1023x1023_S1023x1024_d1 : Shape.Concatenates [S1023x1, S1023x1023] S1023x1024 1
  shapeCasts_S8x1023x8192_S8x1023x8x1024 : S8x1023x8192.ShapeCasts S8x1023x8x1024
  bcast_S1023x1024_S1x1023x1x1024_1_3 : S1023x1024.BroadcastsInDim S1x1023x1x1024 (![1, 3] : Fin 2 → Fin S1x1023x1x1024.rank)
  bcast_S1x1023x1x1024_S8x1023x8x1024_0_1_2_3 : S1x1023x1x1024.BroadcastsInDim S8x1023x8x1024 (![0, 1, 2, 3] : Fin 4 → Fin S8x1023x8x1024.rank)
  bcast_S_S8x1023x8x1024 : S_.BroadcastsInDim S8x1023x8x1024 (![] : Fin 0 → Fin S8x1023x8x1024.rank)
  shapeCasts_S8x1023x8x1024_S8x1023x8192 : S8x1023x8x1024.ShapeCasts S8x1023x8192
  dot_S8x1023x768_S8x8192x768_S8x1023x8192_2_2_1_1_0_0_wf : DotDims.WF S8x1023x768 S8x8192x768 S8x1023x8192 [2] [2] [1] [1] [0] [0]

variable [Facts₀]

def dot_S8x1023x768_S8x8192x768_S8x1023x8192_2_2_1_1_0_0 : DotDims S8x1023x768 S8x8192x768 S8x1023x8192 where
  lhsContracting := [2]
  rhsContracting := [2]
  lhsNonContracting := [1]
  rhsNonContracting := [1]
  lhsBatch := [0]
  rhsBatch := [0]
  wf := dot_S8x1023x768_S8x8192x768_S8x1023x8192_2_2_1_1_0_0_wf

class Facts : Prop extends Facts₀ where

variable [Facts]
-- ==== Proof.Spec.lean ====
/-
  The windowed cosine similarity, as ONE function of the two argument arrays.

  For a batch `b`, a query row `r < 1023` and a key column `col < 8192`, write `col = 1024·F + c`. The result keeps the
  cosine of query row `r` with key row `col` exactly where `c = r + 1` (so column 0 of every block of 1024 is never kept)
  and holds the fill value everywhere else. The cosine is written the way the kernel computes it: each row scaled by the
  reciprocal square root of its sum of squares, then the sum over the 768 features of the products.

  The reference divides by the square root instead. On the extended reals the two agree whenever the sum of squares is
  positive (the value `⊤` included): `x · rsqrt s = x / √s`. At `s = 0` they do not (`0 · ⊤ = 0` against `0 / 0`), which is why
  the statement asks every row's sum of squares to be positive.
-/
import Idealize.ShloMosaic.PureOps.Ideal
import Idealize.ShloMosaic.Lib.ValueIdx

noncomputable section

open scoped BigOperators

namespace Cert.CosineWindow

open Idealize.ShloMosaic Idealize.ShloMosaic.ValueIdx

/-- The fill value of every column that is not kept: the f32 word of `-1e9`, the same word in both programs. -/
def fill : EReal := Ideal.ofBits .f32 0xCE6E6B28#32

/-- The sum of squares of row `(b, n)` of an array of `N` rows of 768 features per batch. -/
def sumSq {N : Nat} (x : (⟨3, ![8, N, 768]⟩ : Shape).Idx → EReal) (b : Fin 8) (n : Fin N) : EReal :=
  ∑ d : Fin 768, x (ix3 b n d) * x (ix3 b n d)

/-- Entry `d` of row `(b, n)` scaled to unit length: the entry times the reciprocal square root of the row's sum of squares. -/
def unitRow {N : Nat} (x : (⟨3, ![8, N, 768]⟩ : Shape).Idx → EReal) (b : Fin 8) (n : Fin N) (d : Fin 768) : EReal :=
  x (ix3 b n d) * Ideal.rsqrt (sumSq x b n)

/-- The cosine of query row `(b, r)` with key row `(b, col)`. -/
def cosine (l : (⟨3, ![8, 1023, 768]⟩ : Shape).Idx → EReal) (x : (⟨3, ![8, 8192, 768]⟩ : Shape).Idx → EReal)
    (b : Fin 8) (r : Fin 1023) (col : Fin 8192) : EReal :=
  ∑ d : Fin 768, unitRow l b r d * unitRow x b col d

/-- Column `col` of row `r` is kept when, inside its block of 1024 columns, it sits one past the row's own number. -/
abbrev kept (r col : Nat) : Prop := col % 1024 = r + 1

/-- The result array: the cosine at the kept columns, the fill value elsewhere. -/
def result (l : (⟨3, ![8, 1023, 768]⟩ : Shape).Idx → EReal) (x : (⟨3, ![8, 8192, 768]⟩ : Shape).Idx → EReal) :
    (⟨3, ![8, 1023, 8192]⟩ : Shape).Idx → EReal :=
  fun j => if kept (j 1).val (j 2).val then cosine l x (j 0) (j 1) (j 2) else fill

theorem result_ix3 (l : (⟨3, ![8, 1023, 768]⟩ : Shape).Idx → EReal) (x : (⟨3, ![8, 8192, 768]⟩ : Shape).Idx → EReal)
    (b : Fin 8) (r : Fin 1023) (col : Fin 8192) :
    result l x (ix3 b r col) = if kept r.val col.val then cosine l x b r col else fill := rfl

/-- Scaling by the reciprocal square root is dividing by the square root, for every positive extended real `s`:
    at `s = ⊤` both sides are `x · 0`; at a positive real both are `x · (√s)⁻¹`. -/
theorem mul_rsqrt_eq_div_sqrt (x s : EReal) (hs : 0 < s) : x * Ideal.rsqrt s = Ideal.div x (Ideal.sqrt s) := by
  induction s using EReal.rec with
  | bot => exact absurd hs (by simp)
  | top =>
    rw [Ideal.rsqrt_top, Ideal.sqrt_top, Ideal.div, if_neg (by simp), EReal.inv_top]
  | coe r =>
    have hr : 0 < r := by exact_mod_cast hs
    have hq : Real.sqrt r ≠ 0 := (Real.sqrt_pos.2 hr).ne'
    rw [Ideal.rsqrt_coe, if_neg (not_lt.2 hr.le), if_neg hr.ne', Ideal.sqrt_coe, if_neg (not_lt.2 hr.le), Ideal.div,
      if_neg (by exact_mod_cast hq), EReal.coe_inv]

/-- The same with the host's sum of squares, which starts from the zero word: `0 + s = s`. -/
theorem unitRow_eq_div {N : Nat} (x : (⟨3, ![8, N, 768]⟩ : Shape).Idx → EReal) (b : Fin 8) (n : Fin N) (d : Fin 768)
    (hpos : 0 < sumSq x b n) :
    unitRow x b n d = Ideal.div (x (ix3 b n d)) (Ideal.sqrt (0 + sumSq x b n)) := by
  rw [zero_add]; exact mul_rsqrt_eq_div_sqrt _ _ hpos

/-! ## The keep mask, as the two programs compute it on 32-bit words -/

/-- The kernel's test `col - 1 = row` on 32-bit words, for a row below 1023 and a column below 1024, holds exactly when the
    column is one past the row (at column 0 the word `0 - 1` is `2³² - 1`, no row). -/
theorem word_pred_eq_iff (r c : Nat) (hr : r < 1023) (hc : c < 1024) :
    (BitVec.ofNat 32 c - 1#32 = BitVec.ofNat 32 r) ↔ c = r + 1 := by
  constructor
  · intro h
    have := congrArg BitVec.toNat h
    simp only [BitVec.toNat_sub, BitVec.toNat_ofNat] at this
    omega
  · rintro rfl
    apply BitVec.eq_of_toNat_eq
    simp only [BitVec.toNat_sub, BitVec.toNat_ofNat]
    omega

/-- The reference's test `row + 0 = col'` on 32-bit words, for both below 1023, is equality of the numbers. -/
theorem word_add_zero_eq_iff (r c' : Nat) (hr : r < 1023) (hc : c' < 1023) :
    (BitVec.ofNat 32 r + 0#32 = BitVec.ofNat 32 c') ↔ r = c' := by
  constructor
  · intro h
    have := congrArg BitVec.toNat h
    simp only [BitVec.toNat_add, BitVec.toNat_ofNat] at this
    omega
  · rintro rfl; simp

end Cert.CosineWindow

end
-- ==== Proof.RowsPositive.lean ====
/-
  From the precondition to the fact the proof uses: every row of both inputs has a positive sum of squares.

  The precondition is the conjunction of four `all`s; the last two say, row by row, that the host's sum of the squares along
  the feature axis (the zero word plus the sum over the 768 features) is greater than the zero word. Read at an index that
  is `0 < 0 + ∑ d, x d * x d`.
-/
import proofs.«408310_j37383395344620_3_alg».proof.Pre_finite_inputs
import proofs.«408310_j37383395344620_3_alg».proof.Proof.Spec
import Idealize.ShloMosaic.Lib.ReduceAll
import Idealize.ShloMosaic.Lib.IdealHost
import Idealize.ShloMosaic.PureOps.Ideal.Laws

noncomputable section

open scoped BigOperators

namespace Cert.CosineWindow

open Idealize.ShloMosaic Idealize.ShloMosaic.ValueIdx

open Cert.Pre_finite_inputs in
/-- The rank-0 shape has one index. -/
private instance subsingleton_scalar_idx : Subsingleton S_.Idx := ⟨fun _ _ => funext fun d => d.elim0⟩

/-- The comparison `x > y` on extended reals came out true only when `y < x`. -/
private theorem lt_of_cmp_ogt {x y : EReal} (e : Ideal.cmp .ogt x y = 1#1) : y < x := by
  by_contra hn
  have h0 : Ideal.cmp .ogt x y = 0#1 := by
    unfold Ideal.cmp
    simp only [decide_eq_false hn]
    rfl
  rw [h0] at e
  exact absurd e (by decide)

open Cert.Pre_finite_inputs Cert.Pre_finite_inputs.Facts in
/-- The host's sum of the squares of query row `(b, n)`, from the zero word, is the row's sum of squares. -/
private theorem lhs_sum_apply [Facts] (l : FVec Ideal S8x1023x768 .f32) (b : Fin 8) (n : Fin 1023) :
    Host.reduceAdd (mulf l l) (constant (F := Ideal) S_ .f32 0x00000000#32) reducesTo_S8x1023x768_S8x1023_d2 h_S_ (ix2 b n)
      = sumSq l b n := by
  have hR : S8x1023x768.Reduces [2] S8x1023 := by decide
  rw [hostReduceAdd_apply, Ideal.hostReduceAdd_single _ hR, constant_apply, Ideal.ofBits_zero_f32, zero_add]
  unfold sumSq
  refine Finset.sum_congr rfl fun k _ => ?_
  have hk : hR.lift (ix2 b n) k = ix3 b n k :=
    funext fun a => Fin.ext (by match a with | ⟨0, _⟩ => rfl | ⟨1, _⟩ => rfl | ⟨2, _⟩ => rfl)
  rw [mulf_apply, hk]
  rfl

open Cert.Pre_finite_inputs Cert.Pre_finite_inputs.Facts in
/-- The same for key row `(b, n)`. -/
private theorem rhs_sum_apply [Facts] (x : FVec Ideal S8x8192x768 .f32) (b : Fin 8) (n : Fin 8192) :
    Host.reduceAdd (mulf x x) (constant (F := Ideal) S_ .f32 0x00000000#32) reducesTo_S8x8192x768_S8x8192_d2 h_S_ (ix2 b n)
      = sumSq x b n := by
  have hR : S8x8192x768.Reduces [2] S8x8192 := by decide
  rw [hostReduceAdd_apply, Ideal.hostReduceAdd_single _ hR, constant_apply, Ideal.ofBits_zero_f32, zero_add]
  unfold sumSq
  refine Finset.sum_congr rfl fun k _ => ?_
  have hk : hR.lift (ix2 b n) k = ix3 b n k :=
    funext fun a => Fin.ext (by match a with | ⟨0, _⟩ => rfl | ⟨1, _⟩ => rfl | ⟨2, _⟩ => rfl)
  rw [mulf_apply, hk]
  rfl

open Cert.Pre_finite_inputs Cert.Pre_finite_inputs.Facts in
/-- One element of the third `all`: the comparison at `(b, n)` being true says the query row's sum of squares is positive. -/
private theorem lhs_row_pos [Facts] (l : FVec Ideal S8x1023x768 .f32) (b : Fin 8) (n : Fin 1023)
    (e : cmpf .ogt
        (Host.reduceAdd (mulf l l) (constant (F := Ideal) S_ .f32 0x00000000#32) reducesTo_S8x1023x768_S8x1023_d2 h_S_)
        (broadcastInDim S8x1023 ![] bcast_S_S8x1023 (constant (F := Ideal) S_ .f32 0x00000000#32)) (ix2 b n) = 1#1) :
    0 < sumSq l b n := by
  rw [cmpf_apply, Ideal.cmpf_def, lhs_sum_apply, broadcastInDim_scalar_apply, constant_apply, Ideal.ofBits_zero_f32] at e
  exact lt_of_cmp_ogt e

open Cert.Pre_finite_inputs Cert.Pre_finite_inputs.Facts in
/-- One element of the fourth `all`, for a key row. -/
private theorem rhs_row_pos [Facts] (x : FVec Ideal S8x8192x768 .f32) (b : Fin 8) (n : Fin 8192)
    (e : cmpf .ogt
        (Host.reduceAdd (mulf x x) (constant (F := Ideal) S_ .f32 0x00000000#32) reducesTo_S8x8192x768_S8x8192_d2 h_S_)
        (broadcastInDim S8x8192 ![] bcast_S_S8x8192 (constant (F := Ideal) S_ .f32 0x00000000#32)) (ix2 b n) = 1#1) :
    0 < sumSq x b n := by
  rw [cmpf_apply, Ideal.cmpf_def, rhs_sum_apply, broadcastInDim_scalar_apply, constant_apply, Ideal.ofBits_zero_f32] at e
  exact lt_of_cmp_ogt e

/-- Under the precondition every query row and every key row has a positive sum of squares. -/
theorem rows_positive [Cert.Pre_finite_inputs.Facts]
    (l : FVec Ideal Cert.Pre_finite_inputs.S8x1023x768 .f32) (x : FVec Ideal Cert.Pre_finite_inputs.S8x8192x768 .f32)
    (h : Cert.Pre_finite_inputs.fn (F := Ideal) l x = fun _ => 1#1) :
    (∀ (b : Fin 8) (n : Fin 1023), 0 < sumSq l b n) ∧ (∀ (b : Fin 8) (n : Fin 8192), 0 < sumSq x b n) := by
  -- the value at the one index is the `and` of the four `all`s, nested to the left
  have h0 : IntOp.andi (IntOp.andi (IntOp.andi _ _) _) _ = 1#1 := congrFun h ix0
  obtain ⟨h012, h19⟩ := IntOp.andi_eq_one.1 h0
  obtain ⟨_, h13⟩ := IntOp.andi_eq_one.1 h012
  refine ⟨fun b n => lhs_row_pos l b n ?_, fun b n => rhs_row_pos x b n ?_⟩
  · exact Host.reduce_andi_all _ _ _ _ _ h13 (ix2 b n)
  · exact Host.reduce_andi_all _ _ _ _ _ h19 (ix2 b n)

end Cert.CosineWindow

end
-- ==== Proof.RefValue.lean ====
/-
  The reference's result, stage by stage, is the windowed cosine similarity `result` — wherever every row's sum of squares is
  positive, which is where its quotient by the norm is the kernel's product with the reciprocal square root.
-/
import proofs.«408310_j37383395344620_3_alg».proof.Proof.RefRead
import proofs.«408310_j37383395344620_3_alg».proof.Proof.Spec

noncomputable section

open scoped BigOperators

namespace Cert.CosineWindow

open Idealize.ShloMosaic Idealize.ShloMosaic.ValueIdx Cert.ReferenceIdeal

/-! The reference's stages read one at a time; the statements below are about its own stages, kept in a namespace of their own. -/
namespace Reference

/-! ## The two unit rows -/

/-- The left argument's sum of squares, as the reference sums it from the zero word. -/
theorem ssq_l (x0 : (⟨S8x1023x768, .f32⟩ : BufTy).Contents (Elt Ideal)) (b : Fin 8) (r : Fin 1023) :
    ReadP.val_main_call0_v1 (F := Ideal) x0 (ix2 b r) = 0 + sumSq x0 b r := by
  rw [ReadP.val_main_call0_v1_apply, ReadP.val_main_call0_cst_apply, Ideal.ofBits_def, Ideal.ofBits_zero_f32]
  unfold sumSq
  refine congrArg (0 + ·) (Finset.sum_congr rfl fun k _ => ?_)
  have e : ReadP.idx_main_call0_v1 (ix2 b r) k = ix3 b r k :=
    funext fun a => Fin.ext (by match a with | ⟨0, _⟩ => rfl | ⟨1, _⟩ => rfl | ⟨2, _⟩ => rfl)
  rw [ReadP.val_main_call0_v0_apply, Ideal.mulf_def, e]

/-- The right argument's sum of squares, as the reference sums it from the zero word. -/
theorem ssq_r (x1 : (⟨S8x8192x768, .f32⟩ : BufTy).Contents (Elt Ideal)) (b : Fin 8) (n : Fin 8192) :
    ReadP.val_main_call1_v1 (F := Ideal) x1 (ix2 b n) = 0 + sumSq x1 b n := by
  rw [ReadP.val_main_call1_v1_apply, ReadP.val_main_call1_cst_apply, Ideal.ofBits_def, Ideal.ofBits_zero_f32]
  unfold sumSq
  refine congrArg (0 + ·) (Finset.sum_congr rfl fun k _ => ?_)
  have e : ReadP.idx_main_call1_v1 (ix2 b n) k = ix3 b n k :=
    funext fun a => Fin.ext (by match a with | ⟨0, _⟩ => rfl | ⟨1, _⟩ => rfl | ⟨2, _⟩ => rfl)
  rw [ReadP.val_main_call1_v0_apply, Ideal.mulf_def, e]

/-- The reference's left row divided by its norm is the unit row. -/
theorem norm_l (x0 : (⟨S8x1023x768, .f32⟩ : BufTy).Contents (Elt Ideal)) (b : Fin 8) (r : Fin 1023) (k : Fin 768)
    (hl : 0 < sumSq x0 b r) :
    ReadP.val_main_v2 (F := Ideal) x0 (ix3 b r k) = unitRow x0 b r k := by
  have e : ReadP.idx_main_call0_v2 (ReadP.idx_main_v1 (ix3 b r k)) = ix2 b r :=
    funext fun a => Fin.ext (by match a with | ⟨0, _⟩ => rfl | ⟨1, _⟩ => rfl)
  rw [unitRow_eq_div x0 b r k hl, ReadP.val_main_v2_apply, Ideal.hostDivf_def, ReadP.val_main_v1_apply, ReadP.val_main_v0_apply,
    Ideal.hostUnary_sqrt_def, ReadP.val_main_call0_v2_apply, e, ssq_l]

/-- The reference's right row divided by its norm is the unit row. -/
theorem norm_r (x1 : (⟨S8x8192x768, .f32⟩ : BufTy).Contents (Elt Ideal)) (b : Fin 8) (n : Fin 8192) (k : Fin 768)
    (hx : 0 < sumSq x1 b n) :
    ReadP.val_main_v5 (F := Ideal) x1 (ix3 b n k) = unitRow x1 b n k := by
  have e : ReadP.idx_main_call1_v2 (ReadP.idx_main_v4 (ix3 b n k)) = ix2 b n :=
    funext fun a => Fin.ext (by match a with | ⟨0, _⟩ => rfl | ⟨1, _⟩ => rfl)
  rw [unitRow_eq_div x1 b n k hx, ReadP.val_main_v5_apply, Ideal.hostDivf_def, ReadP.val_main_v4_apply, ReadP.val_main_v3_apply,
    Ideal.hostUnary_sqrt_def, ReadP.val_main_call1_v2_apply, e, ssq_r]

/-- The reference's contraction of the two normalized arrays is the cosine. -/
theorem sim_eq (x0 : (⟨S8x1023x768, .f32⟩ : BufTy).Contents (Elt Ideal)) (x1 : (⟨S8x8192x768, .f32⟩ : BufTy).Contents (Elt Ideal))
    (b : Fin 8) (r : Fin 1023) (col : Fin 8192) (hl : 0 < sumSq x0 b r) (hx : 0 < sumSq x1 b col) :
    ReadP.val_main_v6 (F := Ideal) x0 x1 (ix3 b r col) = cosine x0 x1 b r col := by
  rw [ReadP.val_main_v6_apply]
  unfold cosine
  refine Finset.sum_congr rfl fun k _ => ?_
  have el : ReadP.lidx_main_v6 (ix3 b r col) k = ix3 b r k :=
    funext fun a => Fin.ext (by match a with | ⟨0, _⟩ => rfl | ⟨1, _⟩ => rfl | ⟨2, _⟩ => rfl)
  have er : ReadP.ridx_main_v6 (ix3 b r col) k = ix3 b col k :=
    funext fun a => Fin.ext (by match a with | ⟨0, _⟩ => rfl | ⟨1, _⟩ => rfl | ⟨2, _⟩ => rfl)
  rw [el, er, norm_l x0 b r k hl, norm_r x1 b col k hx]

/-! ## The keep mask -/

/-- The word comparison for equality is the bit of the equality. -/
theorem cmpi_eq_ite {w : Nat} (x y : BitVec w) : IntOp.cmpi .eq x y = if x = y then 1#1 else 0#1 := by
  unfold IntOp.cmpi
  by_cases h : x = y
  · rw [if_pos h, h]; simp
  · rw [if_neg h, show (x == y) = false from beq_eq_false_iff_ne.2 h]; rfl

/-- The mask at row `r`, column `c` of a block: column 0 comes from the piece of zeros, a column `c ≥ 1` from the
    diagonal test at `(r, c - 1)`; together the bit is `1` exactly when `c = r + 1`. -/
theorem mask_eq (r : Fin 1023) (c : Fin 1024) :
    ReadP.val_main_v13 (F := Ideal) (ix2 r c) = if c.val = r.val + 1 then 1#1 else 0#1 := by
  have hr := r.isLt
  have hc := c.isLt
  unfold ReadP.val_main_v13
  by_cases h0 : c.val = 0
  · refine (concatenate_pair_apply_left (t := S1023x1024) (s₁ := S1023x1) (s₂ := S1023x1023) (1 : Fin S1023x1024.rank) _ _ _
      (ix2 r c) rfl (ix2 r (⟨0, Nat.one_pos⟩ : Fin 1))
      (fun a => by match a with | ⟨0, _⟩ => rfl | ⟨1, _⟩ => exact h0.symm)).trans ?_
    rw [ReadP.val_main_v7_apply, ReadP.val_main_c_apply, if_neg (by omega)]
  · refine (concatenate_pair_apply_right (t := S1023x1024) (s₁ := S1023x1) (s₂ := S1023x1023) (1 : Fin S1023x1024.rank) _ _ _
      (ix2 r c) rfl rfl (ix2 r (⟨c.val - 1, by omega⟩ : Fin 1023))
      (fun a => by match a with | ⟨0, _⟩ => intro _; rfl | ⟨1, _⟩ => intro h; exact absurd rfl h)
      (by show (c.val - 1) + 1 = c.val; omega)).trans ?_
    rw [ReadP.val_main_v12_apply, ReadP.val_main_v11_apply, ReadP.val_main_v8_apply, ReadP.val_main_v9_apply, ReadP.val_main_v10_apply,
      ReadP.val_main_c_0_apply, cmpi_eq_ite]
    show (if IntOp.addi (BitVec.ofNat 32 r.val) 0#32 = BitVec.ofNat 32 (c.val - 1) then 1#1 else 0#1) = _
    unfold IntOp.addi
    by_cases hk : c.val = r.val + 1
    · rw [if_pos hk, if_pos ((word_add_zero_eq_iff r.val (c.val - 1) hr (by omega)).2 (by omega))]
    · rw [if_neg hk, if_neg (fun h => hk (by have := (word_add_zero_eq_iff r.val (c.val - 1) hr (by omega)).1 h; omega))]

/-! ## The two reshapes -/

/-- The block of 1024 columns that column `col` lies in. -/
abbrev blk (col : Fin 8192) : Fin 8 := ⟨col.val / 1024, by have := col.isLt; omega⟩
/-- The column's place inside its block. -/
abbrev off (col : Fin 8192) : Fin 1024 := ⟨col.val % 1024, Nat.mod_lt _ (by decide)⟩

/-- Splitting the column axis: the flat position `(b, r, col)` is `(b, r, col / 1024, col % 1024)`. -/
theorem idx17 (b : Fin 8) (r : Fin 1023) (col : Fin 8192) :
    ReadP.idx_main_v17 (ix3 b r col) = ix4 b r (blk col) (off col) := by
  have hb := b.isLt
  have hr := r.isLt
  have hc := col.isLt
  funext a
  apply Fin.ext
  match a with
  | ⟨0, _⟩ => show ((b.val * 1023 + r.val) * 8192 + col.val) / 8380416 = b.val; omega
  | ⟨1, _⟩ => show ((b.val * 1023 + r.val) * 8192 + col.val) / 8192 % 1023 = r.val; omega
  | ⟨2, _⟩ => show ((b.val * 1023 + r.val) * 8192 + col.val) / 1024 % 8 = col.val / 1024; omega
  | ⟨3, _⟩ => show ((b.val * 1023 + r.val) * 8192 + col.val) % 1024 = col.val % 1024; omega

/-- Joining the two axes again gives the column back. -/
theorem idx14 (b : Fin 8) (r : Fin 1023) (col : Fin 8192) :
    ReadP.idx_main_v14 (ix4 b r (blk col) (off col)) = ix3 b r col := by
  have hb := b.isLt
  have hr := r.isLt
  have hc := col.isLt
  funext a
  apply Fin.ext
  match a with
  | ⟨0, _⟩ => show (((b.val * 1023 + r.val) * 8 + col.val / 1024) * 1024 + col.val % 1024) / 8380416 = b.val; omega
  | ⟨1, _⟩ => show (((b.val * 1023 + r.val) * 8 + col.val / 1024) * 1024 + col.val % 1024) / 8192 % 1023 = r.val; omega
  | ⟨2, _⟩ => show (((b.val * 1023 + r.val) * 8 + col.val / 1024) * 1024 + col.val % 1024) % 8192 = col.val; omega

end Reference

open Reference

/-- The reference's last stage is `result` of its two arguments. -/
theorem reference_eq_result
    (l : (⟨S8x1023x768, .f32⟩ : BufTy).Contents (Elt Ideal)) (x : (⟨S8x8192x768, .f32⟩ : BufTy).Contents (Elt Ideal))
    (hl : ∀ (b : Fin 8) (n : Fin 1023), 0 < sumSq l b n) (hx : ∀ (b : Fin 8) (n : Fin 8192), 0 < sumSq x b n) :
    Cert.ReferenceIdeal.ReadP.val_main_v17 (F := Ideal) l x = result l x := by
  funext j
  obtain ⟨b, r, col, rfl⟩ : ∃ (b : Fin 8) (r : Fin 1023) (col : Fin 8192), j = ix3 b r col := ⟨j 0, j 1, j 2, eq_ix3 j⟩
  have em : ReadP.idx_main_v15 (ReadP.idx_main_call2_v1 (ix4 b r (blk col) (off col))) = ix2 r (off col) :=
    funext fun a => Fin.ext (by match a with | ⟨0, _⟩ => rfl | ⟨1, _⟩ => rfl)
  rw [result_ix3, ReadP.val_main_v17_apply, idx17, ReadP.val_main_v16_apply, ReadP.val_main_call2_v1_apply, ReadP.val_main_v15_apply,
    em, mask_eq]
  by_cases hk : kept r.val col.val
  · rw [if_pos hk, if_pos hk, select_one, ReadP.val_main_v14_apply, idx14, sim_eq l x b r col (hl b r) (hx b col)]
  · rw [if_neg hk, if_neg hk, select_zero, ReadP.val_main_call2_v2_apply, ReadP.val_main_call2_v0_apply, ReadP.val_main_cst_apply,
      Ideal.ofBits_def]
    rfl

end Cert.CosineWindow

end
-- ==== Proof.LibColumn.lean ====
/-
  Two layout operations on a column, read at an index. A column is an array of shape `[a, 1]`.

  * `broadcastTo_a1_ab_apply`: a column broadcast along `b` lanes reads, at `(p, c)`, the column's entry of row `p`
    (a keepdims reduction result, or a per-row scale, laid against a matrix).
  * `shapeCast_a_a1_apply`: a vector `[a]` cast to a column reads, at `(p, 0)`, the vector's entry `p`
    (`v[:, None]`, or a reshape `(a,) → (a, 1)`).

  Both are stated over the literal-extent index constructors `ix1`, `ix2`, for any element type.
-/
import Idealize.ShloMosaic.Lib.ValueIdx
import Idealize.ShloMosaic.Lib.Pipeline.Value

noncomputable section

namespace Cert.Lib

open Idealize.ShloMosaic Idealize.ShloMosaic.ValueIdx

/-- An `[a, 1]` column broadcast along `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib

end
-- ==== Proof.KernelBlock.lean ====
/-
  The kernel body's arithmetic, read at an index at the exact instance.

  One grid point handles a batch `b` and two consecutive blocks of 1024 key rows. The body keeps the 1023 query rows of the
  batch, each scaled to unit length, in a scratch tile (`unit rows`: entry times the reciprocal square root of the row's sum
  of squares). For each of the two blocks it reads the 1023 key rows that start ONE row into the block, scales them the same
  way, and takes row by row the sum over the features of the products with the scratch tile: that is the one number a result
  row keeps in this block, at the column one past the row's own number; every other column of the row gets the fill value.
-/
import proofs.«408310_j37383395344620_3_alg».proof.Proof.Gen.KernelIdeal.Skeleton
import proofs.«408310_j37383395344620_3_alg».proof.Proof.Spec
import proofs.«408310_j37383395344620_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.CosineWindow

open Idealize.ShloMosaic Idealize.ShloMosaic.ValueIdx Cert.Lib
open Cert.KernelIdeal Cert.KernelIdeal.Gen

/-- A lane sum from the zero word over the 768 features of a [1023, 768] tile, at row `r`, is the sum of the row. -/
theorem laneSum (v : FVec Ideal S1023x768 .f32) (r : Fin 1023) :
    multiReduction .add [1] S1023 v 0x00000000#32 Facts₀.reduces_S1023x768_S1023 (.inl rfl) rfl (ix1 r)
      = ∑ d : Fin 768, v (ix2 r d) := by
  refine (Ideal.multiReduction_add_single v 0x00000000#32 Facts₀.reduces_S1023x768_S1023 (.inl rfl) rfl (ix1 r)).trans ?_
  refine Finset.sum_congr rfl fun d _ => congrArg v ?_
  funext a
  apply Fin.ext
  match a with
  | ⟨0, _⟩ => rfl
  | ⟨1, _⟩ => rfl

/-- A tile's row scaled to unit length, the way the body spells it: the tile times the broadcast column of the reciprocal
    square roots of the rows' sums of squares. -/
theorem unitTile_apply (v : FVec Ideal S1023x768 .f32) (r : Fin 1023) (d : Fin 768) :
    mulf v (broadcastTo S1023x768 (rsqrt (shapeCast S1023x1
        (multiReduction .add [1] S1023 (mulf v v) 0x00000000#32 Facts₀.reduces_S1023x768_S1023 (.inl rfl) rfl)
        Facts₀.shapeCasts_S1023_S1023x1)) Facts₀.broadcasts_S1023x1_S1023x768) (ix2 r d)
      = v (ix2 r d) * Ideal.rsqrt (∑ e : Fin 768, v (ix2 r e) * v (ix2 r e)) := by
  rw [mulf_apply]
  refine congrArg (v (ix2 r d) * ·) ?_
  refine (broadcastTo_a1_ab_apply _ Facts₀.broadcasts_S1023x1_S1023x768 r d).trans ?_
  show Ideal.rsqrt (shapeCast S1023x1 _ Facts₀.shapeCasts_S1023_S1023x1 (ix2 r (0 : Fin 1))) = _
  refine congrArg Ideal.rsqrt ?_
  refine (shapeCast_a_a1_apply _ Facts₀.shapeCasts_S1023_S1023x1 r 0).trans ?_
  exact laneSum _ r

/-- The three-axis view of a block of 1023 rows with its leading unit axis dropped. -/
theorem dropUnit_apply (x : Vec Ideal S1x1023x768 .f32) (r : Fin 1023) (d : Fin 768) :
    shapeCast S1023x768 x Facts₀.shapeCasts_S1x1023x768_S1023x768 (ix2 r d) = x (ix3 (0 : Fin 1) r d) :=
  shapeCast_1ab_ab_apply x Facts₀.shapeCasts_S1x1023x768_S1023x768 r d

/-- Entry `d` of row `r` of a block of 1023 rows, scaled to unit length. -/
def unitOf (x : Vec Ideal S1x1023x768 .f32) (r : Fin 1023) (d : Fin 768) : EReal :=
  x (ix3 (0 : Fin 1) r d) * Ideal.rsqrt (∑ e : Fin 768, x (ix3 (0 : Fin 1) r e) * x (ix3 (0 : Fin 1) r e))

/-- What the body stores in the scratch tile: the query block's rows scaled to unit length. -/
theorem scratch_apply (x0 : Vec Ideal S1x1023x768 .f32) (r : Fin 1023) (d : Fin 768) :
    k0_pay2 (F := Ideal) x0 (ix2 r d) = unitOf x0 r d := by
  unfold k0_pay2
  refine (congrFun (shapeCast_self _ Facts₀.shapeCasts_S1023x768_S1023x768) (ix2 r d)).trans ?_
  refine (unitTile_apply _ r d).trans ?_
  unfold unitOf
  have e : ∀ k : Fin 768, shapeCast S1023x768 x0 Facts₀.shapeCasts_S1x1023x768_S1023x768 (ix2 r k) = x0 (ix3 (0 : Fin 1) r k) :=
    fun k => dropUnit_apply x0 r k
  exact congrArg₂ (· * ·) (e d) (congrArg Ideal.rsqrt (Finset.sum_congr rfl fun k _ => congrArg₂ (· * ·) (e k) (e k)))

/-- The keep mask the body builds from two iotas: at row `r` and column `c` of a block it is set exactly when the column is
    one past the row. -/
theorem keepMask_apply (r : Fin 1023) (c : Fin 1024) :
    k0_pay3 (ix2 r c) = if c.val = r.val + 1 then 1#1 else 0#1 := by
  unfold k0_pay3
  show IntOp.cmpi .eq (IntOp.subi (iota .tc S1023x1024 32 [1] Facts₀.iota_S1023x1024_d1_w32 (ix2 r c)) 1#32)
      (iota .tc S1023x1024 32 [0] Facts₀.iota_S1023x1024_d0_w32 (ix2 r c)) = _
  rw [iota_single_apply, iota_single_apply]
  show BitVec.ofBool (BitVec.ofNat 32 c.val - 1#32 == BitVec.ofNat 32 r.val) = _
  by_cases h : c.val = r.val + 1
  · rw [if_pos h, (word_pred_eq_iff r.val c.val r.isLt c.isLt).2 h, beq_self_eq_true]
    rfl
  · rw [if_neg h]
    have hne : BitVec.ofNat 32 c.val - 1#32 ≠ BitVec.ofNat 32 r.val := fun e => h ((word_pred_eq_iff r.val c.val r.isLt c.isLt).1 e)
    rw [beq_eq_false_iff_ne.2 hne]
    rfl

/-- The one number row `r` keeps against a block of key rows `v`: the sum over the features of the scratch row times the key
    row scaled to unit length. -/
def rowDot (sc : Vec Ideal S1023x768 .f32) (v : Vec Ideal S1x1023x768 .f32) (r : Fin 1023) : EReal :=
  ∑ d : Fin 768, sc (ix2 r d) * unitOf v r d

/-- The row sums the body forms before it spreads them over the columns. -/
theorem rowDot_eq (sc : Vec Ideal S1023x768 .f32) (v : Vec Ideal S1x1023x768 .f32) (r : Fin 1023) :
    multiReduction (F := Ideal) .add [1] S1023 (mulf sc (mulf (shapeCast S1023x768 v Facts₀.shapeCasts_S1x1023x768_S1023x768)
        (broadcastTo S1023x768 (rsqrt (shapeCast S1023x1
          (multiReduction .add [1] S1023 (mulf (shapeCast S1023x768 v Facts₀.shapeCasts_S1x1023x768_S1023x768)
            (shapeCast S1023x768 v Facts₀.shapeCasts_S1x1023x768_S1023x768)) 0x00000000#32 Facts₀.reduces_S1023x768_S1023 (.inl rfl) rfl)
          Facts₀.shapeCasts_S1023_S1023x1)) Facts₀.broadcasts_S1023x1_S1023x768))) 0x00000000#32 Facts₀.reduces_S1023x768_S1023 (.inl rfl) rfl (ix1 r)
      = rowDot sc v r := by
  refine (laneSum _ r).trans ?_
  unfold rowDot
  refine Finset.sum_congr rfl fun d _ => ?_
  rw [mulf_apply]
  refine congrArg (sc (ix2 r d) * ·) ?_
  refine (unitTile_apply _ r d).trans ?_
  unfold unitOf
  have e : ∀ k : Fin 768, shapeCast S1023x768 v Facts₀.shapeCasts_S1x1023x768_S1023x768 (ix2 r k) = v (ix3 (0 : Fin 1) r k) :=
    fun k => dropUnit_apply v r k
  exact congrArg₂ (· * ·) (e d) (congrArg Ideal.rsqrt (Finset.sum_congr rfl fun k _ => congrArg₂ (· * ·) (e k) (e k)))

/-- The left half of the output block, at row `r` and column `c`: the row's number at the kept column, the fill elsewhere. -/
theorem left_apply (sc : Vec Ideal S1023x768 .f32) (v9 : Vec Ideal S1x1023x768 .f32) (u : Fin 1) (r : Fin 1023) (c : Fin 1024) :
    k0_pay4 (F := Ideal) sc v9 (ix3 u r c) = if c.val = r.val + 1 then rowDot sc v9 r else fill := by
  unfold k0_pay4
  refine (shapeCast_ab_1ab_apply _ Facts₀.shapeCasts_S1023x1024_S1x1023x1024 u r c).trans ?_
  rw [select_apply, keepMask_apply]
  by_cases h : c.val = r.val + 1
  · rw [if_pos h, if_pos h, select_one]
    refine (broadcastTo_a1_ab_apply _ Facts₀.broadcasts_S1023x1_S1023x1024 r c).trans ?_
    refine (congrFun (shapeCast_self _ Facts₀.shapeCasts_S1023x1_S1023x1) (ix2 r (0 : Fin 1))).trans ?_
    refine (shapeCast_a_a1_apply _ Facts₀.shapeCasts_S1023_S1023x1 r 0).trans ?_
    exact rowDot_eq sc v9 r
  · rw [if_neg h, if_neg h, select_zero]
    rfl

/-- The row sums against the second block of key rows. -/
theorem right_sum_apply (sc : Vec Ideal S1023x768 .f32) (v27 : Vec Ideal S1x1023x768 .f32) (r : Fin 1023) :
    k0_pay5 (F := Ideal) sc v27 (ix1 r) = rowDot sc v27 r := by
  unfold k0_pay5
  exact rowDot_eq sc v27 r

/-- The right half of the output block, from the mask and the row sums. -/
theorem right_apply (v8 : IVec S1023x1024 1) (v36 : FVec Ideal S1023 .f32) (u : Fin 1) (r : Fin 1023) (c : Fin 1024) :
    k0_pay1 (F := Ideal) v8 v36 (ix3 u r c) = Scalar.select (v8 (ix2 r c)) (v36 (ix1 r)) fill := by
  unfold k0_pay1
  refine (shapeCast_ab_1ab_apply _ Facts₀.shapeCasts_S1023x1024_S1x1023x1024 u r c).trans ?_
  rw [select_apply]
  refine congrArg (Scalar.select (v8 (ix2 r c)) · _) ?_
  refine (broadcastTo_a1_ab_apply _ Facts₀.broadcasts_S1023x1_S1023x1024 r c).trans ?_
  refine (congrFun (shapeCast_self _ Facts₀.shapeCasts_S1023x1_S1023x1) (ix2 r (0 : Fin 1))).trans ?_
  exact shapeCast_a_a1_apply _ Facts₀.shapeCasts_S1023_S1023x1 r 0

end Cert.CosineWindow

end
-- ==== Proof.KernelPoint.lean ====
/-
  What one grid point leaves in its output block and in the scratch tile.

  The body writes its [1, 1023, 2048] output block in two halves of 1024 columns. Each half is, row by row, the row's one
  kept number at the column one past the row's own number and the fill value elsewhere (`Proof/KernelBlock.lean`); the left
  half uses the 1023 key rows from row 1 of the point's key block, the right half those from row 1025. So the whole block is
  ONE function of the scratch tile and the key block (`blockFn`), and the two stores are its two tiles. At a point that opens
  a batch the scratch tile is first filled with the query rows scaled to unit length; at the other points it is carried.
-/
import proofs.«408310_j37383395344620_3_alg».proof.Proof.Gen.KernelIdeal.Frame
import proofs.«408310_j37383395344620_3_alg».proof.Proof.KernelBlock
import Idealize.ShloMosaic.Lib.Pipeline.Value
import Idealize.ShloMosaic.Lib.Tactic

set_option maxRecDepth 16384

noncomputable section

open scoped BigOperators

namespace Cert.CosineWindow

open Idealize.ShloMosaic Idealize.ShloMosaic.TcCoe Idealize.SL.Sem Idealize.ShloMosaic.ValueIdx
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The 1023 key rows the left half reads: rows 1 to 1023 of the point's block of 2048 key rows. -/
abbrev rowsA (x1 : Vec Ideal S1x2048x768 .f32) : Vec Ideal S1x1023x768 .f32 :=
  View.ld (Val := Elt Ideal) (e' := .f32) x1 (Rect.unit (s := S1x2048x768) ![0, 1, 0] S1x1023x768.size Facts₀.inb_S1x2048x768_S1x1023x768_0_1_0)

/-- The 1023 key rows the right half reads: rows 1025 to 2047. -/
abbrev rowsB (x1 : Vec Ideal S1x2048x768 .f32) : Vec Ideal S1x1023x768 .f32 :=
  View.ld (Val := Elt Ideal) (e' := .f32) x1 (Rect.unit (s := S1x2048x768) ![0, 1025, 0] S1x1023x768.size Facts₀.inb_S1x2048x768_S1x1023x768_0_1025_0)

theorem rowsA_apply (x1 : Vec Ideal S1x2048x768 .f32) (r : Fin 1023) (e : Fin 768) :
    rowsA x1 (ix3 (0 : Fin 1) r e) = x1 (ix3 (0 : Fin 1) (⟨1 + r.val, by omega⟩ : Fin 2048) e) := by
  show x1 _ = x1 _
  refine congrArg x1 (funext fun a => Fin.ext ?_)
  match a with
  | ⟨0, _⟩ => rfl
  | ⟨1, _⟩ => show 1 + 1 * r.val = 1 + r.val; omega
  | ⟨2, _⟩ => show 0 + 1 * e.val = e.val; omega

theorem rowsB_apply (x1 : Vec Ideal S1x2048x768 .f32) (r : Fin 1023) (e : Fin 768) :
    rowsB x1 (ix3 (0 : Fin 1) r e) = x1 (ix3 (0 : Fin 1) (⟨1025 + r.val, by omega⟩ : Fin 2048) e) := by
  show x1 _ = x1 _
  refine congrArg x1 (funext fun a => Fin.ext ?_)
  match a with
  | ⟨0, _⟩ => rfl
  | ⟨1, _⟩ => show 1025 + 1 * r.val = 1025 + r.val; omega
  | ⟨2, _⟩ => show 0 + 1 * e.val = e.val; omega

/-- Row `r`, column `cc` of the output block, from the scratch tile `sc` and the key block `x1`. -/
def blockAt (sc : Vec Ideal S1023x768 .f32) (x1 : Vec Ideal S1x2048x768 .f32) (r : Fin 1023) (cc : Fin 2048) : EReal :=
  if cc.val < 1024 then (if cc.val = r.val + 1 then rowDot sc (rowsA x1) r else fill)
  else (if cc.val = 1024 + (r.val + 1) then rowDot sc (rowsB x1) r else fill)

/-- The output block as one function of the scratch tile and the key block. -/
def blockFn (sc : Vec Ideal S1023x768 .f32) (x1 : Vec Ideal S1x2048x768 .f32) : Vec Ideal S1x1023x2048 .f32 :=
  fun y => blockAt sc x1 (y 1) (y 2)

theorem blockAt_left (sc : Vec Ideal S1023x768 .f32) (x1 : Vec Ideal S1x2048x768 .f32) (r : Fin 1023) (c : Fin 1024)
    (r' : Fin 1023) (cc : Fin 2048) (hr : r'.val = r.val) (hc : cc.val = c.val) :
    blockAt sc x1 r' cc = if c.val = r.val + 1 then rowDot sc (rowsA x1) r else fill := by
  obtain rfl : r' = r := Fin.ext hr
  unfold blockAt
  have h1 : cc.val < 1024 := by have := c.isLt; omega
  rw [if_pos h1]
  by_cases h : c.val = r'.val + 1
  · rw [if_pos h, if_pos (by omega)]
  · rw [if_neg h, if_neg (by omega)]

theorem blockAt_right (sc : Vec Ideal S1023x768 .f32) (x1 : Vec Ideal S1x2048x768 .f32) (r : Fin 1023) (c : Fin 1024)
    (r' : Fin 1023) (cc : Fin 2048) (hr : r'.val = r.val) (hc : cc.val = 1024 + c.val) :
    blockAt sc x1 r' cc = Scalar.select (if c.val = r.val + 1 then 1#1 else 0#1) (rowDot sc (rowsB x1) r) fill := by
  obtain rfl : r' = r := Fin.ext hr
  unfold blockAt
  have h1 : ¬cc.val < 1024 := by omega
  rw [if_neg h1]
  by_cases h : c.val = r'.val + 1
  · rw [if_pos h, if_pos (by omega), select_one]
  · rw [if_neg h, if_neg (by omega), select_zero]

/-- The two stores of a point, last first: the right half, then the left half. -/
def blockPieces (sc : Vec Ideal S1023x768 .f32) (x1 : Vec Ideal S1x2048x768 .f32) :
    List (View.Piece (Elt Ideal) S1x1023x2048 .f32) :=
  [⟨Rect.unit ![0, 0, 1024] S1x1023x1024.size Facts₀.inb_S1x1023x2048_S1x1023x1024_0_0_1024,
      k0_pay1 (F := Ideal) k0_pay3 (k0_pay5 (F := Ideal) sc (rowsB x1))⟩,
   ⟨Rect.unit ![0, 0, 0] S1x1023x1024.size Facts₀.inb_S1x1023x2048_S1x1023x1024_0_0_0,
      k0_pay4 (F := Ideal) sc (rowsA x1)⟩]

/-- Each store's payload is the block function on the store's tile. -/
theorem blockPieces_spec (sc : Vec Ideal S1023x768 .f32) (x1 : Vec Ideal S1x2048x768 .f32) :
    ∀ p ∈ blockPieces sc x1, ∀ x : p.1.shape.Idx, p.2 x = blockFn sc x1 (p.1.emb x) := by
  intro p hp
  unfold blockPieces at hp
  rcases List.mem_cons.1 hp with rfl | hp
  · intro x
    obtain ⟨u, r, c, rfl⟩ : ∃ (u : Fin 1) (r : Fin 1023) (c : Fin 1024), x = ix3 u r c := ⟨x 0, x 1, x 2, eq_ix3 x⟩
    show k0_pay1 (F := Ideal) k0_pay3 (k0_pay5 (F := Ideal) sc (rowsB x1)) (ix3 u r c) = blockAt sc x1 _ _
    rw [right_apply, keepMask_apply, right_sum_apply]
    refine (blockAt_right sc x1 r c _ _ ?_ ?_).symm
    · show 0 + 1 * r.val = r.val; omega
    · show 1024 + 1 * c.val = 1024 + c.val; omega
  · obtain rfl := List.mem_singleton.1 hp
    intro x
    obtain ⟨u, r, c, rfl⟩ : ∃ (u : Fin 1) (r : Fin 1023) (c : Fin 1024), x = ix3 u r c := ⟨x 0, x 1, x 2, eq_ix3 x⟩
    show k0_pay4 (F := Ideal) sc (rowsA x1) (ix3 u r c) = blockAt sc x1 _ _
    rw [left_apply]
    refine (blockAt_left sc x1 r c _ _ ?_ ?_).symm
    · show 0 + 1 * r.val = r.val; omega
    · show 0 + 1 * c.val = c.val; omega

section Cases

variable (c : Dev nD) (i : grid0.Coords) (a2 : Memref sig .tc .vmem S1x1023x768 .f32) (h2 : a2.IsWhole)
  (a3 : Memref sig .tc .vmem S1x2048x768 .f32) (h3 : a3.IsWhole) (a4 : Memref sig .tc .vmem S1x1023x2048 .f32) (h4 : a4.IsWhole)
  (a5 : Memref sig .tc .vmem S1023x768 .f32) (h5 : a5.IsWhole)
  (x0 : Vec Ideal S1x1023x768 .f32) (x1 : Vec Ideal S1x2048x768 .f32)

/-- A point that opens a batch leaves the query rows scaled to unit length in the scratch tile. -/
theorem scratchA (hc : cond0_0 i) :
    sout0_A_0 (F := Ideal) c i a2 h2 a3 h3 a4 h4 a5 h5 hc x0 x1 = k0_pay2 (F := Ideal) x0 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h2.read_unread, View.ld_unit_zero (S := S1x1023x768) hz3]

/-- Its two stores are the block function's tiles over the scratch tile it has just filled. -/
theorem piecesA (hc : cond0_0 i) :
    (kernelRun0_A (F := Ideal) c i a2 h2 a3 h3 a4 h4 a5 h5 hc x0 x1).1 = blockPieces (k0_pay2 (F := Ideal) x0) x1 := by
  unfold kernelRun0_A
  dsimp only
  sl_unfold_words
  simp only [View.readAt_eq_ld, h2.read_unread, h3.read_unread, View.ld_unit_zero (S := S1x1023x768) hz3,
    View.readCov_unit_zero (S := S1023x768) _ hz2]
  rfl

/-- So it leaves the block function of that scratch tile and its key block. -/
theorem outA (hc : cond0_0 i) :
    out0_A_2 (F := Ideal) c i a2 h2 a3 h3 a4 h4 a5 h5 hc x0 x1 = blockFn (k0_pay2 (F := Ideal) x0) x1 := by
  unfold out0_A_2
  rw [View.read_writes_eq_canon _ _ _ (cover0_A_2 c i a2 h2 a3 h3 a4 h4 a5 h5 hc x0 x1)]
  funext y
  have hy := cover0_A_2 (F := Ideal) c i a2 h2 a3 h3 a4 h4 a5 h5 hc x0 x1 y
  rw [piecesA] at hy ⊢
  exact View.canon_apply_of_pieces (blockFn (k0_pay2 (F := Ideal) x0) x1) _ (blockPieces_spec _ _) y hy

/-- At the other points the two stores are the block function's tiles over the carried scratch tile. -/
theorem piecesB (hc : ¬cond0_0 i) (xs : Vec Ideal S1023x768 .f32) :
    (kernelRun0_B (F := Ideal) c i a2 h2 a3 h3 a4 h4 a5 h5 hc x0 x1 xs).1 = blockPieces xs x1 := by
  unfold kernelRun0_B
  dsimp only
  sl_unfold_words
  simp only [View.readAt_eq_ld, h3.read_unread, h5.read_unread, View.ld_unit_zero (S := S1023x768) hz2]
  rfl

theorem outB (hc : ¬cond0_0 i) (xs : Vec Ideal S1023x768 .f32) :
    out0_B_2 (F := Ideal) c i a2 h2 a3 h3 a4 h4 a5 h5 hc x0 x1 xs = blockFn xs x1 := by
  unfold out0_B_2
  rw [View.read_writes_eq_canon _ _ _ (cover0_B_2 c i a2 h2 a3 h3 a4 h4 a5 h5 hc x0 x1 xs)]
  funext y
  have hy := cover0_B_2 (F := Ideal) c i a2 h2 a3 h3 a4 h4 a5 h5 hc x0 x1 xs y
  rw [piecesB] at hy ⊢
  exact View.canon_apply_of_pieces (blockFn xs x1) _ (blockPieces_spec _ _) y hy

end Cases

end Cert.CosineWindow

end
-- ==== Proof.KernelValue.lean ====
/-
  The kernel's result array after the run is the windowed cosine similarity `result` of its two argument arrays.

  The grid has 32 points: point `t` handles batch `t / 4` and the key rows `2048·(t % 4)` … `2048·(t % 4) + 2047`. Its query
  block is the batch's 1023 query rows, its key block those 2048 key rows, and it writes the result's columns of the same
  range for the batch. The scratch tile is filled at the points `t % 4 = 0` and carried by the three points that follow, so
  after every point it holds the unit rows of the point's own batch (an induction over the points). With that, what a point
  writes back is the block of `result` it covers: in a half of 1024 columns the kept column of row `r` is `r + 1`, and the key
  row read there — row `1 + r` (left half) or `1025 + r` (right half) of the key block — is the key row with the column's own
  number. The 32 blocks tile the result array.
-/
import proofs.«408310_j37383395344620_3_alg».proof.Proof.Gen.KernelIdeal.Value
import proofs.«408310_j37383395344620_3_alg».proof.Proof.KernelPoint

set_option maxRecDepth 16384

noncomputable section

open scoped BigOperators

namespace Cert.CosineWindow

open Idealize.ShloMosaic Idealize.ShloMosaic.TcCoe Idealize.SL.Sem Idealize.ShloMosaic.ValueIdx
open Cert.KernelIdeal Cert.KernelIdeal.Gen
open Idealize.ShloMosaic.Pipeline (Dat)

/-! ## The block function against the specification -/

/-- The unit rows of batch `b` of the query array, as a [1023, 768] tile. -/
def unitTile (A0 : Vec Ideal S8x1023x768 .f32) (b : Fin 8) : Vec Ideal S1023x768 .f32 :=
  fun y => unitRow A0 b (y 0) (y 1)

/-- A row's kept number is the cosine, when the key rows read are the key array's row `col`. -/
theorem rowDot_eq_cosine (A0 : Vec Ideal S8x1023x768 .f32) (A1 : Vec Ideal S8x8192x768 .f32) (b : Fin 8) (r : Fin 1023)
    (col : Fin 8192) (v : Vec Ideal S1x1023x768 .f32)
    (hv : ∀ e : Fin 768, v (ix3 (0 : Fin 1) r e) = A1 (ix3 b col e)) :
    rowDot (unitTile A0 b) v r = cosine A0 A1 b r col := by
  unfold rowDot cosine
  refine Finset.sum_congr rfl fun d _ => ?_
  refine congrArg₂ (· * ·) rfl ?_
  unfold unitOf unitRow sumSq
  exact congrArg₂ (· * ·) (hv d) (congrArg Ideal.rsqrt (Finset.sum_congr rfl fun e _ => congrArg₂ (· * ·) (hv e) (hv e)))

/-- The block function over the unit rows of batch `b` and the `q`-th block of 2048 key rows of the batch is `result` on the
    columns `2048·q` … `2048·q + 2047`. -/
theorem blockAt_eq_result (A0 : Vec Ideal S8x1023x768 .f32) (A1 : Vec Ideal S8x8192x768 .f32) (b : Fin 8) (q : Fin 4)
    (x1 : Vec Ideal S1x2048x768 .f32)
    (h1 : ∀ (k : Fin 2048) (e : Fin 768) (n : Fin 8192), n.val = q.val * 2048 + k.val → x1 (ix3 (0 : Fin 1) k e) = A1 (ix3 b n e))
    (r : Fin 1023) (cc : Fin 2048) (col : Fin 8192) (hcol : col.val = q.val * 2048 + cc.val) :
    blockAt (unitTile A0 b) x1 r cc = result A0 A1 (ix3 b r col) := by
  have hq := q.isLt
  have hr := r.isLt
  have hcc := cc.isLt
  rw [result_ix3]
  unfold blockAt kept
  by_cases hlt : cc.val < 1024
  · rw [if_pos hlt]
    by_cases hk : cc.val = r.val + 1
    · rw [if_pos hk, if_pos (by omega)]
      refine rowDot_eq_cosine A0 A1 b r col (rowsA x1) fun e => ?_
      rw [rowsA_apply]
      exact h1 _ e col (by show col.val = q.val * 2048 + (1 + r.val); omega)
    · rw [if_neg hk, if_neg (by omega)]
  · rw [if_neg hlt]
    by_cases hk : cc.val = 1024 + (r.val + 1)
    · rw [if_pos hk, if_pos (by omega)]
      refine rowDot_eq_cosine A0 A1 b r col (rowsB x1) fun e => ?_
      rw [rowsB_apply]
      exact h1 _ e col (by show col.val = q.val * 2048 + (1025 + r.val); omega)
    · rw [if_neg hk, if_neg (by omega)]

/-! ## The blocks of a point, read off the argument arrays -/

variable (m : (ℓ : Loc nD τ sig) → Buf (Elt Ideal) ℓ) (ρ : Dev nD → PrngReg)

/-- The query array and the key array as the run finds them. -/
abbrev qarr (c : Dev nD) : Vec Ideal S8x1023x768 .f32 := m ((c : Thread nD τ).loc main_arg0)
abbrev karr (c : Dev nD) : Vec Ideal S8x8192x768 .f32 := m ((c : Thread nD τ).loc main_arg1)
/-- A point's query block and key block. -/
abbrev qblk (c : Dev nD) (t : Fin cfg0.N) : Vec Ideal S1x1023x768 .f32 := iblk m c 0 t
abbrev kblk (c : Dev nD) (t : Fin cfg0.N) : Vec Ideal S1x2048x768 .f32 := iblk m c 1 t

theorem lt32 (t : Fin cfg0.N) : t.val < 32 := lt_of_lt_of_eq t.isLt (show cfg0.N = 32 from N_0)

/-- The batch of a point. -/
abbrev batchOf (t : Fin cfg0.N) : Fin 8 := ⟨t.val / 4, by have := lt32 t; omega⟩
/-- The block of 2048 key rows (and result columns) of a point. -/
abbrev partOf (t : Fin cfg0.N) : Fin 4 := ⟨t.val % 4, Nat.mod_lt _ (by decide)⟩

/-- The three printed index maps, decided over the 32 points: the query block moves with the batch only, the key block and
    the output block with the batch and the part. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = t.val % 4 :=
  (by decide +kernel : ∀ t : Fin grid0.N, _)

/-- Every pair of a batch and a part is some point's. -/
theorem idx_onto : ∀ (b : Fin 8) (q : Fin 4), ∃ t : Fin cfg0.N, t.val = 4 * b.val + q.val :=
  (by decide +kernel : ∀ (b : Fin 8) (q : Fin 4), ∃ t : Fin grid0.N, t.val = 4 * b.val + q.val)

/-- The query block of a point is the batch's rows of the query array. -/
theorem qblk_apply (c : Dev nD) (t : Fin cfg0.N) (r : Fin 1023) (e : Fin 768) :
    qblk m c t (ix3 (0 : Fin 1) r e) = qarr m c (ix3 (batchOf t) r e) := by
  obtain ⟨e0, e1, e2, -⟩ := idx_facts t
  show V m c main_arg0 (((cfg0.win 0).blk t).view.emb (ix3 (0 : Fin 1) r e)) = _
  refine congrArg (m ((c : Thread nD τ).loc main_arg0)) (funext fun a => Fin.ext ?_)
  match a with
  | ⟨0, _⟩ => show win0_0.index t (0 : Fin 3) * 1 + 1 * 0 = t.val / 4; omega
  | ⟨1, _⟩ => show win0_0.index t (1 : Fin 3) * 1023 + 1 * r.val = r.val; omega
  | ⟨2, _⟩ => show win0_0.index t (2 : Fin 3) * 768 + 1 * e.val = e.val; omega

/-- The key block of a point is the part's 2048 rows of the batch of the key array. -/
theorem kblk_apply (c : Dev nD) (t : Fin cfg0.N) (k : Fin 2048) (e : Fin 768) (n : Fin 8192)
    (hn : n.val = (partOf t).val * 2048 + k.val) :
    kblk m c t (ix3 (0 : Fin 1) k e) = karr m c (ix3 (batchOf t) n e) := by
  obtain ⟨-, -, -, e0, e1, e2, -⟩ := idx_facts t
  show V m c main_arg1 (((cfg0.win 1).blk t).view.emb (ix3 (0 : Fin 1) k e)) = _
  refine congrArg (m ((c : Thread nD τ).loc main_arg1)) (funext fun a => Fin.ext ?_)
  match a with
  | ⟨0, _⟩ => show win0_1.index t (0 : Fin 3) * 1 + 1 * 0 = t.val / 4; omega
  | ⟨1, _⟩ => show win0_1.index t (1 : Fin 3) * 2048 + 1 * k.val = n.val; rw [hn, e1]; show _ = t.val % 4 * 2048 + k.val; omega
  | ⟨2, _⟩ => show win0_1.index t (2 : Fin 3) * 768 + 1 * e.val = e.val; omega

/-- What a point that opens a batch stores in the scratch tile: the batch's unit rows. -/
theorem pay2_qblk (c : Dev nD) (t : Fin cfg0.N) :
    k0_pay2 (F := Ideal) (qblk m c t) = unitTile (qarr m c) (batchOf t) := by
  funext y
  obtain ⟨r, d, rfl⟩ : ∃ (r : Fin 1023) (d : Fin 768), y = ix2 r d := ⟨y 0, y 1, eq_ix2 y⟩
  rw [scratch_apply]
  show unitOf (qblk m c t) r d = unitRow (qarr m c) (batchOf t) r d
  unfold unitOf unitRow sumSq
  exact congrArg₂ (· * ·) (qblk_apply m c t r d)
    (congrArg Ideal.rsqrt (Finset.sum_congr rfl fun e _ => congrArg₂ (· * ·) (qblk_apply m c t r e) (qblk_apply m c t r e)))

/-! ## The scratch tile after every point -/

/-- After point `n` the scratch tile holds the unit rows of batch `n / 4`: filled at the points `n % 4 = 0`, carried otherwise. -/
theorem scratch_eq (c : Dev nD) : ∀ (n : ℕ) (h : n < cfg0.N),
    (outsAt0 m c n h).2 = unitTile (qarr m c) (batchOf ⟨n, h⟩)
  | 0, h => by
    rw [outsAt0_A m c ⟨0, h⟩ rfl]
    dsimp only
    exact (scratchA c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) (qblk m c ⟨0, h⟩) (kblk m c ⟨0, h⟩) ((hcond0_0 ⟨0, h⟩).mpr rfl)).trans (pay2_qblk m c ⟨0, h⟩)
  | n + 1, h => by
    have hN : n + 1 < 32 := lt32 ⟨n + 1, h⟩
    by_cases h0 : (⟨n + 1, h⟩ : Fin cfg0.N).val % 4 = 0
    · rw [outsAt0_A m c ⟨n + 1, h⟩ h0]
      dsimp only
      exact (scratchA c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) (qblk m c ⟨n + 1, h⟩) (kblk m c ⟨n + 1, h⟩)
        ((hcond0_0 ⟨n + 1, h⟩).mpr h0)).trans (pay2_qblk m c ⟨n + 1, h⟩)
    · rw [outsAt0_B m c ⟨n + 1, h⟩ h0]
      dsimp only
      show (outsAt0 m c n _).2 = _
      rw [scratch_eq c n]
      refine congrArg (unitTile (qarr m c)) (Fin.ext ?_)
      show n / 4 = (n + 1) / 4
      have h0' : ¬(n + 1) % 4 = 0 := h0
      omega

/-! ## What a point writes back, and the whole array -/

/-- The output block after point `t`: the block function of the batch's unit rows and the point's key block. -/
theorem outBlock_eq (c : Dev nD) (t : Fin cfg0.N) :
    (outsAt0 m c t.val t.isLt).1 = blockFn (unitTile (qarr m c) (batchOf t)) (kblk m c t) := by
  have hN := lt32 t
  by_cases h0 : t.val % 4 = 0
  · rw [outsAt0_A m c t h0]
    dsimp only
    refine (outA c (grid0.coords t) (ms0_0 t) (hs0_0 t) (ms0_1 t) (hs0_1 t) (ms0_2 t) (hs0_2 t) scM0_0 (Memref.isWhole_whole _)
      (qblk m c t) (kblk m c t) ((hcond0_0 t).mpr h0)).trans ?_
    rw [pay2_qblk]
  · rw [outsAt0_B m c t h0]
    dsimp only
    refine (outB c (grid0.coords t) (ms0_0 t) (hs0_0 t) (ms0_1 t) (hs0_1 t) (ms0_2 t) (hs0_2 t) scM0_0 (Memref.isWhole_whole _)
      (qblk m c t) (kblk m c t) (fun h => h0 ((hcond0_0 t).mp h))
      ((outsAt0 m c (t.val - 1) (Nat.lt_of_le_of_lt (Nat.sub_le _ _) t.isLt)).2)).trans ?_
    rw [scratch_eq m c (t.val - 1)]
    refine congrArg (fun b => blockFn (unitTile (qarr m c) b) (kblk m c t)) (Fin.ext ?_)
    show (t.val - 1) / 4 = t.val / 4
    omega

/-- WHAT POINT `t` WRITES BACK is block `t` of `result` of the two argument arrays. -/
theorem flushed_eq (c : Dev nD) (t : Fin cfg0.N) :
    (dats m 0 c).flushed 2 t = ((cfg0.win 2).blk t).view.read (Elt Ideal) (result (qarr m c) (karr m c)) := by
  have hN := lt32 t
  obtain ⟨-, -, -, -, -, -, e0, e1, e2⟩ := idx_facts t
  rw [Cert.KernelIdeal.Value.flushed2, outBlock_eq]
  funext j
  obtain ⟨u, r, cc, rfl⟩ : ∃ (u : Fin 1) (r : Fin 1023) (cc : Fin 2048), j = ix3 u r cc := ⟨j 0, j 1, j 2, eq_ix3 j⟩
  show blockAt (unitTile (qarr m c) (batchOf t)) (kblk m c t) r cc
    = result (qarr m c) (karr m c) (((cfg0.win 2).blk t).view.emb (ix3 u r cc))
  have hu : u.val = 0 := by omega
  have hcol : t.val % 4 * 2048 + cc.val < 8192 := by have := cc.isLt; omega
  have hemb : ((cfg0.win 2).blk t).view.emb (ix3 u r cc) = ix3 (batchOf t) r (⟨t.val % 4 * 2048 + cc.val, hcol⟩ : Fin 8192) := by
    funext a
    apply Fin.ext
    match a with
    | ⟨0, _⟩ => show win0_2.index t (0 : Fin 3) * 1 + 1 * u.val = t.val / 4; omega
    | ⟨1, _⟩ => show win0_2.index t (1 : Fin 3) * 1023 + 1 * r.val = r.val; omega
    | ⟨2, _⟩ => show win0_2.index t (2 : Fin 3) * 2048 + 1 * cc.val = t.val % 4 * 2048 + cc.val; omega
  rw [hemb]
  exact blockAt_eq_result (qarr m c) (karr m c) (batchOf t) (partOf t) (kblk m c t)
    (fun k e n hn => kblk_apply m c t k e n hn) r cc _ rfl

/-- An index of the result array is in point `t`'s block iff each coordinate is in the block's range on its axis. -/
theorem mem_blk (t : Fin cfg0.N) (i : S8x1023x8192.Idx) :
    i ∈ ((cfg0.win 2).blk t).view.set ↔ ∀ a : Fin 3, win0_2.index t a * S1x1023x2048.size a ≤ (i a).val
      ∧ (i a).val < win0_2.index t a * S1x1023x2048.size a + S1x1023x2048.size a := by
  show i ∈ ((View.whole main_v0).slice (win0_2.rect t)).set ↔ _
  rw [View.set_slice_whole, Rect.mem_set_unit]
  exact Iff.rfl

/-- After the last grid point the result array holds `result` of the two arguments: every point writes its block back, and
    the index `(b, r, col)` lies in the block of the point of batch `b` and part `col / 2048`. -/
theorem kernel_final (c : Dev nD) :
    (dats m 0 c).arrAt 2 cfg0.N = result (m ((c : Thread nD τ).loc main_arg0)) (m ((c : Thread nD τ).loc main_arg1)) :=
  (dats m 0 c).arrAt_eq_of_cover 2 (result (qarr m c) (karr m c)) (fun t _ => flushed_eq m c t) fun i => by
    have h0 : (i 0).val < 8 := (i 0).isLt
    have h1 : (i 1).val < 1023 := (i 1).isLt
    have h2 : (i 2).val < 8192 := (i 2).isLt
    obtain ⟨t, ht⟩ := idx_onto ⟨(i 0).val, h0⟩ ⟨(i 2).val / 2048, by omega⟩
    have ht' : t.val = 4 * (i 0).val + (i 2).val / 2048 := ht
    obtain ⟨-, -, -, -, -, -, e0, e1, e2⟩ := idx_facts t
    refine ⟨t, flush0_2 t, ?_⟩
    rw [mem_blk]
    intro a
    match a with
    | ⟨0, _⟩ => show win0_2.index t (0 : Fin 3) * 1 ≤ (i 0).val ∧ (i 0).val < win0_2.index t (0 : Fin 3) * 1 + 1; omega
    | ⟨1, _⟩ => show win0_2.index t (1 : Fin 3) * 1023 ≤ (i 1).val ∧ (i 1).val < win0_2.index t (1 : Fin 3) * 1023 + 1023; omega
    | ⟨2, _⟩ => show win0_2.index t (2 : Fin 3) * 2048 ≤ (i 2).val ∧ (i 2).val < win0_2.index t (2 : Fin 3) * 2048 + 2048; omega

/-- The kernel's run with its result array named. -/
theorem kernel_run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (kernel_final m c), (h c).2⟩) (Cert.KernelIdeal.Value.run_blocks m ρ)

end Cert.CosineWindow

end
-- ==== Proof.lean ====
/-
  The windowed cosine similarity kernel against its jnp reference.

  Both programs compute, for a batch `b`, a query row `r` and a key column `col = 1024·F + c`: the cosine of query row `r` with
  key row `col` where `c = r + 1`, and the fill value `-1e9` (one f32 word, the same in both) everywhere else
  (`Proof/Spec.lean`: `result`). The kernel scales each row by the reciprocal square root of its sum of squares and takes
  the sum of products over the features only at the kept positions; the reference divides each row by the square root of
  its sum of squares, multiplies the two whole matrices and masks. Over the extended reals `x · rsqrt s = x / √s` for every
  `s > 0`, and a sum of products is a matrix product's entry; at `s = 0` the quotient `0 / 0` is not the product `0 · ⊤ = 0`,
  so the statement asks every row's sum of squares to be positive, which is also where the reference's own quotient is defined.

  `Proof/RowsPositive.lean` reads that positivity out of the precondition. `Proof/RefValue.lean` reads the reference's stages
  (`Proof/RefRead.lean`) as `result`; `Proof/RefRun.lean` is the reference's run. On the kernel's side `Proof/KernelBlock.lean`
  reads the body's arithmetic at an index, `Proof/KernelPoint.lean` what one grid point leaves in its output block and in the
  scratch tile, and `Proof/KernelValue.lean` the result array after the 32 points as `result`.
-/
import proofs.«408310_j37383395344620_3_alg».proof.Defs
import proofs.«408310_j37383395344620_3_alg».proof.Proof.Gen.Kernel
import proofs.«408310_j37383395344620_3_alg».proof.Proof.Gen.Kernel.Skeleton
import proofs.«408310_j37383395344620_3_alg».proof.Proof.Gen.Kernel.Launch
import proofs.«408310_j37383395344620_3_alg».proof.Proof.Gen.Kernel.Points
import proofs.«408310_j37383395344620_3_alg».proof.Proof.Gen.Kernel.Frame
import proofs.«408310_j37383395344620_3_alg».proof.Proof.Gen.KernelIdeal
import proofs.«408310_j37383395344620_3_alg».proof.Proof.Gen.KernelIdeal.Skeleton
import proofs.«408310_j37383395344620_3_alg».proof.Proof.Gen.KernelIdeal.Launch
import proofs.«408310_j37383395344620_3_alg».proof.Proof.Gen.KernelIdeal.Points
import proofs.«408310_j37383395344620_3_alg».proof.Proof.Gen.KernelIdeal.Frame
import proofs.«408310_j37383395344620_3_alg».proof.Proof.Gen.ReferenceIdeal
import proofs.«408310_j37383395344620_3_alg».proof.Proof.Gen.Pre_finite_inputs
import proofs.«408310_j37383395344620_3_alg».proof.Proof.Gen.KernelIdeal.Value
import proofs.«408310_j37383395344620_3_alg».proof.Proof.RefRun
import proofs.«408310_j37383395344620_3_alg».proof.Proof.RefRead
import proofs.«408310_j37383395344620_3_alg».proof.Proof.RowsPositive
import proofs.«408310_j37383395344620_3_alg».proof.Proof.RefValue
import proofs.«408310_j37383395344620_3_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both result arrays end at `result` of arguments that agree: the kernel's by its run, the reference's because, the rows'
    sums of squares being positive under the precondition, its stages compose to the same function. -/
theorem algebraic : Cert.algebraic_KernelIdeal_ReferenceIdeal := by
  intro m ρ m' ρ' hpre hagree
  refine ⟨_, Cert.CosineWindow.kernel_run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2]
  obtain ⟨hl, hx⟩ := Cert.CosineWindow.rows_positive _ _ (hpre c)
  exact (Cert.ReferenceIdeal.ReadP.val_main_v17_eq _ _).trans (Cert.CosineWindow.reference_eq_result _ _ hl hx)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
